-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x256 .f32) (main_arg1 : IVec S2x800000 32) (main_arg2 : FVec F S256x256 .f32) (main_arg3 : FVec F S256 .f32) (main_arg4 : FVec F S256x128 .f32) (main_arg5 : FVec F S128 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_v13 main_v16
-- ==== Kernel.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S2000x256 : Shape := ⟨2, ![2000, 256]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩
abbrev S5000x256 : Shape := ⟨2, ![5000, 256]⟩
abbrev S50000x128 : Shape := ⟨2, ![50000, 128]⟩
abbrev S2000x128 : Shape := ⟨2, ![2000, 128]⟩
abbrev S850000x128 : Shape := ⟨2, ![850000, 128]⟩
abbrev S1x128 : Shape := ⟨2, ![1, 128]⟩
abbrev S5000x128 : Shape := ⟨2, ![5000, 128]⟩

abbrev nBuf : Space → Nat
  | .hbm => 124
  | .vmem => 20
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S50000x256, .f32⟩
  | .hbm, ⟨7, _⟩ => ⟨S50000, .i32⟩
  | .hbm, ⟨8, _⟩ => ⟨S1x800000, .i32⟩
  | .hbm, ⟨9, _⟩ => ⟨S800000, .i32⟩
  | .hbm, ⟨10, _⟩ => ⟨S850000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x256, .f32⟩
  | .hbm, ⟨56, _⟩ => ⟨S850000x1, .f32⟩
  | .hbm, ⟨57, _⟩ => ⟨S850000x256, .f32⟩
  | .hbm, ⟨58, _⟩ => ⟨S850000x256, .f32⟩
  | .hbm, ⟨59, _⟩ => ⟨S_, .f32⟩
  | .hbm, ⟨60, _⟩ => ⟨S50000x256, .f32⟩
  | .hbm, ⟨61, _⟩ => ⟨S850000x1, .i32⟩
  | .hbm, ⟨62, _⟩ => ⟨S50000x256, .f32⟩
  | .hbm, ⟨63, _⟩ => ⟨S1x256, .f32⟩
  | .hbm, ⟨64, _⟩ => ⟨S50000x256, .f32⟩
  | .hbm, ⟨65, _⟩ => ⟨S50000x128, .f32⟩
  | .hbm, ⟨66, _⟩ => ⟨S50000, .i32⟩
  | .hbm, ⟨67, _⟩ => ⟨S1x800000, .i32⟩
  | .hbm, ⟨68, _⟩ => ⟨S800000, .i32⟩
  | .hbm, ⟨69, _⟩ => ⟨S850000, .i32⟩
  | .hbm, ⟨70, _⟩ => ⟨S1x800000, .i32⟩
  | .hbm, ⟨71, _⟩ => ⟨S800000, .i32⟩
  | .hbm, ⟨72, _⟩ => ⟨S850000, .i32⟩
  | .hbm, ⟨73, _⟩ => ⟨S_, .f32⟩
  | .hbm, ⟨74, _⟩ => ⟨S850000, .f32⟩
  | .hbm, ⟨75, _⟩ => ⟨S_, .f32⟩
  | .hbm, ⟨76, _⟩ => ⟨S50000, .f32⟩
  | .hbm, ⟨77, _⟩ => ⟨S850000x1, .i32⟩
  | .hbm, ⟨78, _⟩ => ⟨S50000, .f32⟩
  | .hbm, ⟨79, _⟩ => ⟨S_, .f32⟩
  | .hbm, ⟨80, _⟩ => ⟨S50000, .f32⟩
  | .hbm, ⟨81, _⟩ => ⟨S50000, .i1⟩
  | .hbm, ⟨82, _⟩ => ⟨S50000, .f32⟩
  | .hbm, ⟨83, _⟩ => ⟨S_, .f32⟩
  | .hbm, ⟨84, _⟩ => ⟨S_, .f32⟩
  | .hbm, ⟨85, _⟩ => ⟨S50000, .f32⟩
  | .hbm, ⟨86, _⟩ => ⟨S50000, .f32⟩
  | .hbm, ⟨87, _⟩ => ⟨S_, .i32⟩
  | .hbm, ⟨88, _⟩ => ⟨S850000, .i32⟩
  | .hbm, ⟨89, _⟩ => ⟨S850000, .i1⟩
  | .hbm, ⟨90, _⟩ => ⟨S_, .i32⟩
  | .hbm, ⟨91, _⟩ => ⟨S850000, .i32⟩
  | .hbm, ⟨92, _⟩ => ⟨S850000, .i32⟩
  | .hbm, ⟨93, _⟩ => ⟨S850000, .i32⟩
  | .hbm, ⟨94, _⟩ => ⟨S850000x1, .i32⟩
  | .hbm, ⟨95, _⟩ => ⟨S850000, .f32⟩
  | .hbm, ⟨96, _⟩ => ⟨S_, .i32⟩
  | .hbm, ⟨97, _⟩ => ⟨S850000, .i32⟩
  | .hbm, ⟨98, _⟩ => ⟨S850000, .i1⟩
  | .hbm, ⟨99, _⟩ => ⟨S_, .i32⟩
  | .hbm, ⟨100, _⟩ => ⟨S850000, .i32⟩
  | .hbm, ⟨101, _⟩ => ⟨S850000, .i32⟩
  | .hbm, ⟨102, _⟩ => ⟨S850000, .i32⟩
  | .hbm, ⟨103, _⟩ => ⟨S850000x1, .i32⟩
  | .hbm, ⟨104, _⟩ => ⟨S850000, .f32⟩
  | .hbm, ⟨105, _⟩ => ⟨S850000, .f32⟩
  | .hbm, ⟨106, _⟩ => ⟨S_, .i32⟩
  | .hbm, ⟨107, _⟩ => ⟨S850000, .i32⟩
  | .hbm, ⟨108, _⟩ => ⟨S850000, .i1⟩
  | .hbm, ⟨109, _⟩ => ⟨S_, .i32⟩
  | .hbm, ⟨110, _⟩ => ⟨S850000, .i32⟩
  | .hbm, ⟨111, _⟩ => ⟨S850000, .i32⟩
  | .hbm, ⟨112, _⟩ => ⟨S850000, .i32⟩
  | .hbm, ⟨113, _⟩ => ⟨S850000x1, .i32⟩
  | .hbm, ⟨114, _⟩ => ⟨S850000x128, .f32⟩
  | .hbm, ⟨115, _⟩ => ⟨S850000x1, .f32⟩
  | .hbm, ⟨116, _⟩ => ⟨S850000x128, .f32⟩
  | .hbm, ⟨117, _⟩ => ⟨S850000x128, .f32⟩
  | .hbm, ⟨118, _⟩ => ⟨S_, .f32⟩
  | .hbm, ⟨119, _⟩ => ⟨S50000x128, .f32⟩
  | .hbm, ⟨120, _⟩ => ⟨S850000x1, .i32⟩
  | .hbm, ⟨121, _⟩ => ⟨S50000x128, .f32⟩
  | .hbm, ⟨122, _⟩ => ⟨S1x128, .f32⟩
  | .hbm, ⟨123, _⟩ => ⟨S50000x128, .f32⟩
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S2000x256, .f32⟩
  | .local _ .vmem, ⟨4, _⟩ => ⟨S2000x256, .f32⟩
  | .local _ .vmem, ⟨5, _⟩ => ⟨S5000x256, .f32⟩
  | .local _ .vmem, ⟨6, _⟩ => ⟨S5000x256, .f32⟩
  | .local _ .vmem, ⟨7, _⟩ => ⟨S1x256, .f32⟩
  | .local _ .vmem, ⟨8, _⟩ => ⟨S5000x256, .f32⟩
  | .local _ .vmem, ⟨9, _⟩ => ⟨S5000x256, .f32⟩
  | .local _ .vmem, ⟨10, _⟩ => ⟨S2000x256, .f32⟩
  | .local _ .vmem, ⟨11, _⟩ => ⟨S2000x256, .f32⟩
  | .local _ .vmem, ⟨12, _⟩ => ⟨S256x128, .f32⟩
  | .local _ .vmem, ⟨13, _⟩ => ⟨S2000x128, .f32⟩
  | .local _ .vmem, ⟨14, _⟩ => ⟨S2000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_9 : Ref sig .tc := ⟨.hbm, 73, rfl⟩
abbrev main_v54 : Ref sig .tc := ⟨.hbm, 74, rfl⟩
abbrev main_cst_10 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_11 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_12 : Ref sig .tc := ⟨.hbm, 83, rfl⟩
abbrev main_call1_v0 : Ref sig .tc := ⟨.hbm, 84, rfl⟩
abbrev main_call1_v1 : Ref sig .tc := ⟨.hbm, 85, rfl⟩
abbrev main_v61 : Ref sig .tc := ⟨.hbm, 86, rfl⟩
abbrev main_c_13 : Ref sig .tc := ⟨.hbm, 87, rfl⟩
abbrev main_v62 : Ref sig .tc := ⟨.hbm, 88, rfl⟩
abbrev main_v63 : Ref sig .tc := ⟨.hbm, 89, rfl⟩
abbrev main_c_14 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_c_15 : Ref sig .tc := ⟨.hbm, 96, rfl⟩
abbrev main_v69 : Ref sig .tc := ⟨.hbm, 97, rfl⟩
abbrev main_v70 : Ref sig .tc := ⟨.hbm, 98, rfl⟩
abbrev main_c_16 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_c_17 : Ref sig .tc := ⟨.hbm, 106, rfl⟩
abbrev main_v77 : Ref sig .tc := ⟨.hbm, 107, rfl⟩
abbrev main_v78 : Ref sig .tc := ⟨.hbm, 108, rfl⟩
abbrev main_c_18 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_cst_19 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  shapeCasts_S256_S1x256 : S256.ShapeCasts S1x256
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  dot_S2000x256_S256x256_S2000x256_1_0_0_1_n_n_wf : DotDims.WF S2000x256 S256x256 S2000x256 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S2000x256_S256x128_S2000x128_1_0_0_1_n_n_wf : DotDims.WF S2000x256 S256x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x256.size a ≤ S50000x256.size a
  hwx1_2 : ∀ i : grid1.Coords, EltTy.bits .f32 = 32 ∨ (Rect.block (s := S50000x256) S5000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S256x128.size a
  hwx2_1 : ∀ i : grid2.Coords, EltTy.bits .f32 = 32 ∨ (Rect.block (s := S256x128) S256x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)

variable [Facts₀]

def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S256x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v89) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v90) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v91) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩
abbrev S50000x128 : Shape := ⟨2, ![50000, 128]⟩
abbrev S850000x128 : Shape := ⟨2, ![850000, 128]⟩
abbrev S1x128 : Shape := ⟨2, ![1, 128]⟩

abbrev nBuf : Space → Nat
  | .hbm => 137
  | .vmem => 0
  | .smem => 0
  | _ => 0

abbrev hbmTy0_0 (i : Nat) : BufTy := match i % 128 with
  | 0 => ⟨S50000x256, .f32⟩
  | 1 => ⟨S2x800000, .i32⟩
  | 2 => ⟨S256x256, .f32⟩
  | 3 => ⟨S256, .f32⟩
  | 4 => ⟨S256x128, .f32⟩
  | 5 => ⟨S128, .f32⟩
  | 6 => ⟨S50000, .i32⟩
  | 7 => ⟨S1x800000, .i32⟩
  | 8 => ⟨S800000, .i32⟩
  | 9 => ⟨S850000, .i32⟩
  | 10 => ⟨S1x800000, .i32⟩
  | 11 => ⟨S800000, .i32⟩
  | 12 => ⟨S850000, .i32⟩
  | 13 => ⟨S_, .f32⟩
  | 14 => ⟨S850000, .f32⟩
  | 15 => ⟨S_, .f32⟩
  | 16 => ⟨S50000, .f32⟩
  | 17 => ⟨S850000x1, .i32⟩
  | 18 => ⟨S50000, .f32⟩
  | 19 => ⟨S_, .f32⟩
  | 20 => ⟨S50000, .f32⟩
  | 21 => ⟨S50000, .i1⟩
  | 22 => ⟨S50000, .f32⟩
  | 23 => ⟨S_, .f32⟩
  | 24 => ⟨S_, .f32⟩
  | 25 => ⟨S50000, .f32⟩
  | 26 => ⟨S50000, .f32⟩
  | 27 => ⟨S_, .i32⟩
  | 28 => ⟨S850000, .i32⟩
  | 29 => ⟨S850000, .i1⟩
  | 30 => ⟨S_, .i32⟩
  | 31 => ⟨S850000, .i32⟩
  | 32 => ⟨S850000, .i32⟩
  | 33 => ⟨S850000, .i32⟩
  | 34 => ⟨S850000x1, .i32⟩
  | 35 => ⟨S850000, .f32⟩
  | 36 => ⟨S_, .i32⟩
  | 37 => ⟨S850000, .i32⟩
  | 38 => ⟨S850000, .i1⟩
  | 39 => ⟨S_, .i32⟩
  | 40 => ⟨S850000, .i32⟩
  | 41 => ⟨S850000, .i32⟩
  | 42 => ⟨S850000, .i32⟩
  | 43 => ⟨S850000x1, .i32⟩
  | 44 => ⟨S850000, .f32⟩
  | 45 => ⟨S850000, .f32⟩
  | 46 => ⟨S50000x256, .f32⟩
  | 47 => ⟨S_, .i32⟩
  | 48 => ⟨S850000, .i32⟩
  | 49 => ⟨S850000, .i1⟩
  | 50 => ⟨S_, .i32⟩
  | 51 => ⟨S850000, .i32⟩
  | 52 => ⟨S850000, .i32⟩
  | 53 => ⟨S850000, .i32⟩
  | 54 => ⟨S850000x1, .i32⟩
  | 55 => ⟨S850000x256, .f32⟩
  | 56 => ⟨S850000x1, .f32⟩
  | 57 => ⟨S850000x256, .f32⟩
  | 58 => ⟨S850000x256, .f32⟩
  | 59 => ⟨S_, .f32⟩
  | 60 => ⟨S50000x256, .f32⟩
  | 61 => ⟨S850000x1, .i32⟩
  | 62 => ⟨S50000x256, .f32⟩
  | 63 => ⟨S1x256, .f32⟩
  | 64 => ⟨S50000x256, .f32⟩
  | 65 => ⟨S50000x256, .f32⟩
  | 66 => ⟨S_, .f32⟩
  | 67 => ⟨S50000x256, .f32⟩
  | 68 => ⟨S50000x256, .f32⟩
  | 69 => ⟨S50000, .i32⟩
  | 70 => ⟨S1x800000, .i32⟩
  | 71 => ⟨S800000, .i32⟩
  | 72 => ⟨S850000, .i32⟩
  | 73 => ⟨S1x800000, .i32⟩
  | 74 => ⟨S800000, .i32⟩
  | 75 => ⟨S850000, .i32⟩
  | 76 => ⟨S_, .f32⟩
  | 77 => ⟨S850000, .f32⟩
  | 78 => ⟨S_, .f32⟩
  | 79 => ⟨S50000, .f32⟩
  | 80 => ⟨S850000x1, .i32⟩
  | 81 => ⟨S50000, .f32⟩
  | 82 => ⟨S_, .f32⟩
  | 83 => ⟨S50000, .f32⟩
  | 84 => ⟨S50000, .i1⟩
  | 85 => ⟨S50000, .f32⟩
  | 86 => ⟨S_, .f32⟩
  | 87 => ⟨S_, .f32⟩
  | 88 => ⟨S50000, .f32⟩
  | 89 => ⟨S50000, .f32⟩
  | 90 => ⟨S_, .i32⟩
  | 91 => ⟨S850000, .i32⟩
  | 92 => ⟨S850000, .i1⟩
  | 93 => ⟨S_, .i32⟩
  | 94 => ⟨S850000, .i32⟩
  | 95 => ⟨S850000, .i32⟩
  | 96 => ⟨S850000, .i32⟩
  | 97 => ⟨S850000x1, .i32⟩
  | 98 => ⟨S850000, .f32⟩
  | 99 => ⟨S_, .i32⟩
  | 100 => ⟨S850000, .i32⟩
  | 101 => ⟨S850000, .i1⟩
  | 102 => ⟨S_, .i32⟩
  | 103 => ⟨S850000, .i32⟩
  | 104 => ⟨S850000, .i32⟩
  | 105 => ⟨S850000, .i32⟩
  | 106 => ⟨S850000x1, .i32⟩
  | 107 => ⟨S850000, .f32⟩
  | 108 => ⟨S850000, .f32⟩
  | 109 => ⟨S50000x128, .f32⟩
  | 110 => ⟨S_, .i32⟩
  | 111 => ⟨S850000, .i32⟩
  | 112 => ⟨S850000, .i1⟩
  | 113 => ⟨S_, .i32⟩
  | 114 => ⟨S850000, .i32⟩
  | 115 => ⟨S850000, .i32⟩
  | 116 => ⟨S850000, .i32⟩
  | 117 => ⟨S850000x1, .i32⟩
  | 118 => ⟨S850000x128, .f32⟩
  | 119 => ⟨S850000x1, .f32⟩
  | 120 => ⟨S850000x128, .f32⟩
  | 121 => ⟨S850000x128, .f32⟩
  | 122 => ⟨S_, .f32⟩
  | 123 => ⟨S50000x128, .f32⟩
  | 124 => ⟨S850000x1, .i32⟩
  | 125 => ⟨S50000x128, .f32⟩
  | 126 => ⟨S1x128, .f32⟩
  | 127 => ⟨S50000x128, .f32⟩
  | _ => ⟨S50000x256, .f32⟩

abbrev hbmTy0_1 (i : Nat) : BufTy := match i % 128 with
  | 0 => ⟨S50000x128, .f32⟩
  | 1 => ⟨S50000x128, .f32⟩
  | 2 => ⟨S50000x128, .f32⟩
  | 3 => ⟨S_, .f32⟩
  | 4 => ⟨S50000x128, .f32⟩
  | 5 => ⟨S50000x128, .f32⟩
  | 6 => ⟨S_, .f32⟩
  | 7 => ⟨S50000x128, .f32⟩
  | 8 => ⟨S50000x128, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_9 : Ref sig .tc := ⟨.hbm, 76, rfl⟩
abbrev main_v55 : Ref sig .tc := ⟨.hbm, 77, rfl⟩
abbrev main_cst_10 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_v62 : Ref sig .tc := ⟨.hbm, 89, rfl⟩
abbrev main_c_13 : Ref sig .tc := ⟨.hbm, 90, rfl⟩
abbrev main_v63 : Ref sig .tc := ⟨.hbm, 91, rfl⟩
abbrev main_v64 : Ref sig .tc := ⟨.hbm, 92, rfl⟩
abbrev main_c_14 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_c_15 : Ref sig .tc := ⟨.hbm, 99, rfl⟩
abbrev main_v70 : Ref sig .tc := ⟨.hbm, 100, rfl⟩
abbrev main_v71 : Ref sig .tc := ⟨.hbm, 101, rfl⟩
abbrev main_c_16 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_cst_20 : Ref sig .tc := ⟨.hbm, 131, rfl⟩
abbrev main_v97 : Ref sig .tc := ⟨.hbm, 132, rfl⟩
abbrev main_v98 : Ref sig .tc := ⟨.hbm, 133, rfl⟩
abbrev main_cst_21 : Ref sig .tc := ⟨.hbm, 134, rfl⟩
abbrev main_v99 : Ref sig .tc := ⟨.hbm, 135, rfl⟩
abbrev main_v100 : Ref sig .tc := ⟨.hbm, 136, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x256_S256x256_S50000x256_1_0_0_1_n_n_wf : DotDims.WF S50000x256 S256x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.Spec.lean ====
/-
  The two-layer graph convolution, index by index over the extended reals.

  Each layer multiplies the node features by a weight matrix, spreads the product along the edges (a gather, a
  scaling by the symmetric degree normalisation, a scatter-add back to the nodes), adds a bias row to every node and
  applies a pointwise function: the clamp at zero after the first layer, the logistic function after the second.
  Here are the pieces that are NOT the spreading along the edges, each as one function of whole arrays:
  the matrix product as a sum over the contracted index, the bias row added to every row, the clamp, the logistic
  function.  The spreading is the same chain of host operations in both programs and is carried as one function.
-/
import Idealize.ShloMosaic.PureOps.Ideal.Laws
import Idealize.ShloMosaic.Lib.ValueIdx

noncomputable section

namespace Cert.Gcn

open Idealize.ShloMosaic Idealize.ShloMosaic.ValueIdx

/-- Entry `(r, c)` of the product of an `M × K` and a `K × N` matrix: the sum over `k` of `x (r, k) · w (k, c)`. -/
def matProd (M K N : ℕ) (x : FVec Ideal ⟨2, ![M, K]⟩ .f32) (w : FVec Ideal ⟨2, ![K, N]⟩ .f32) : FVec Ideal ⟨2, ![M, N]⟩ .f32 :=
  fun i => ∑ k : Fin K, x (ix2 (i 0 : Fin M) k) * w (ix2 k (i 1 : Fin N))

/-- A one-row matrix added to every row of an `M × N` matrix. -/
def addRow (M N : ℕ) (a : FVec Ideal ⟨2, ![M, N]⟩ .f32) (r : FVec Ideal ⟨2, ![1, N]⟩ .f32) : FVec Ideal ⟨2, ![M, N]⟩ .f32 :=
  fun i => a i + r (ix2 (0 : Fin 1) (i 1 : Fin N))

/-- The clamp at zero, entry by entry. -/
def clamp0 {s : Shape} (a : FVec Ideal s .f32) : FVec Ideal s .f32 := fun i => max (a i) 0

/-- The logistic function `1 / (1 + e⁻ˣ)`, entry by entry. -/
def logi {s : Shape} (a : FVec Ideal s .f32) : FVec Ideal s .f32 := fun i => Ideal.logistic (a i)

end Cert.Gcn

end
-- ==== Proof.Spread.lean ====
/-
  The spreading of node features along the edges of the graph, as one function of the features and the edge list.

  The edge list has two rows of 800000 node numbers: row 0 the sources, row 1 the targets.  A self loop is added for
  each of the 50000 nodes, which gives 850000 messages.  A node's degree is the number of messages that arrive at it;
  a message's weight is the product of the inverse square roots of its source's and its target's degrees (zero where a
  degree is not positive); a negative node number counts from the end.  The new row of a node is the sum over the
  messages arriving at it of the source's row times the message's weight.
  Both programs spell this with the same host operations; here the chain is written once, from the operations as the
  kernel's program prints them, so that neither side has to open it.  It is stated for any float values: nothing in
  it is particular to the extended reals.
-/
import proofs.«142644_j26405458936016_1_alg».proof.Proof.Gen.KernelIdeal

noncomputable section

namespace Cert.Gcn

open Idealize.ShloMosaic Cert.KernelIdeal Cert.KernelIdeal.Gen

variable {F : FTy → Type} [FloatOps F]

/-- The messages' sources: row 0 of the edge list, then every node (its self loop). -/
def sources (e : IVec S2x800000 32) : IVec S850000 32 :=
  concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0

/-- The messages' targets: row 1 of the edge list, then every node. -/
def targets (e : IVec S2x800000 32) : IVec S850000 32 :=
  concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0

/-- A negative node number counts from the end: 50000 is added to it. -/
def wrapped (s : IVec S850000 32) : IVec S850000 32 :=
  select (cmpi .slt s (broadcastInDim S850000 ![] bcast_S_S850000 (constantI S_ 32 0#32)))
    (addi s (broadcastInDim S850000 ![] bcast_S_S850000 (constantI S_ 32 50000#32))) s

/-- A node's degree: one for every message that arrives at it. -/
def degree (e : IVec S2x800000 32) : FVec F S50000 .f32 :=
  Host.scatterAdd scatter_S50000_S850000x1_S850000_n_0_0_1
    (broadcastInDim S50000 ![] bcast_S_S50000 (constant S_ .f32 0x00000000#32))
    (broadcastInDim S850000x1 ![0] bcast_S850000_S850000x1_0 (targets e))
    (broadcastInDim S850000 ![] bcast_S_S850000 (constant S_ .f32 0x3F800000#32))

/-- The inverse square root of the degree where it is positive, zero elsewhere. -/
def invSqrtDegree (e : IVec S2x800000 32) : FVec F S50000 .f32 :=
  select (cmpf .ogt (degree (F := F) e) (broadcastInDim S50000 ![] bcast_S_S50000 (constant S_ .f32 0x00000000#32)))
    (Host.rsqrt (degree (F := F) e))
    (broadcastInDim S50000 ![] bcast_S_S50000 (id (constant S_ .f32 0x00000000#32)))

/-- A message's weight: its source's inverse square root of degree times its target's. -/
def edgeWeight (e : IVec S2x800000 32) : FVec F S850000 .f32 :=
  mulf
    (Host.gather gather_S50000_S850000x1_S850000_n_0_n_n_0_1_1 (invSqrtDegree (F := F) e)
      (broadcastInDim S850000x1 ![0] bcast_S850000_S850000x1_0 (wrapped (sources e))))
    (Host.gather gather_S50000_S850000x1_S850000_n_0_n_n_0_1_1 (invSqrtDegree (F := F) e)
      (broadcastInDim S850000x1 ![0] bcast_S850000_S850000x1_0 (wrapped (targets e))))

/-- The spreading of `256`-wide node features along the edges: every edge (and every self loop) carries its source's
    row scaled by the edge's weight to its target, and a node's new row is the sum of what arrives. -/
def spread256 (h : FVec F S50000x256 .f32) (e : IVec S2x800000 32) : FVec F S50000x256 .f32 :=
  Host.scatterAdd scatter_S50000x256_S850000x1_S850000x256_1_0_0_1
    (broadcastInDim S50000x256 ![] bcast_S_S50000x256 (constant S_ .f32 0x00000000#32))
    (broadcastInDim S850000x1 ![0] bcast_S850000_S850000x1_0 (targets e))
    (mulf
      (Host.gather gather_S50000x256_S850000x1_S850000x256_1_0_n_n_0_1_1256 h
        (broadcastInDim S850000x1 ![0] bcast_S850000_S850000x1_0 (wrapped (sources e))))
      (broadcastInDim S850000x256 ![0, 1] bcast_S850000x1_S850000x256_0_1
        (broadcastInDim S850000x1 ![0] bcast_S850000_S850000x1_0 (edgeWeight (F := F) e))))

/-- The spreading of `128`-wide node features along the edges: every edge (and every self loop) carries its source's
    row scaled by the edge's weight to its target, and a node's new row is the sum of what arrives. -/
def spread128 (h : FVec F S50000x128 .f32) (e : IVec S2x800000 32) : FVec F S50000x128 .f32 :=
  Host.scatterAdd scatter_S50000x128_S850000x1_S850000x128_1_0_0_1
    (broadcastInDim S50000x128 ![] bcast_S_S50000x128 (constant S_ .f32 0x00000000#32))
    (broadcastInDim S850000x1 ![0] bcast_S850000_S850000x1_0 (targets e))
    (mulf
      (Host.gather gather_S50000x128_S850000x1_S850000x128_1_0_n_n_0_1_1128 h
        (broadcastInDim S850000x1 ![0] bcast_S850000_S850000x1_0 (wrapped (sources e))))
      (broadcastInDim S850000x128 ![0, 1] bcast_S850000x1_S850000x128_0_1
        (broadcastInDim S850000x1 ![0] bcast_S850000_S850000x1_0 (edgeWeight (F := F) e))))

end Cert.Gcn

end
-- ==== Proof.Model.lean ====
/-
  The whole two-layer graph convolution as one function of its six inputs:

    logistic ( spread ( clamp ( spread (x · W1) + b1 ) · W2 ) + b2 )

  where `·` is the matrix product, `spread` carries node features along the edges with the symmetric degree
  normalisation, a bias vector is added to every row as a one-row matrix, the clamp is at zero.
-/
import proofs.«142644_j26405458936016_1_alg».proof.Proof.Spec
import proofs.«142644_j26405458936016_1_alg».proof.Proof.Spread

noncomputable section

namespace Cert.Gcn

open Idealize.ShloMosaic Cert.KernelIdeal Cert.KernelIdeal.Gen

/-- The first layer: the hidden features of every node. -/
def hiddenLayer (x : FVec Ideal S50000x256 .f32) (e : IVec S2x800000 32) (W1 : FVec Ideal S256x256 .f32) (b1 : FVec Ideal S256 .f32) :
    FVec Ideal S50000x256 .f32 :=
  clamp0 (addRow 50000 256 (spread256 (matProd 50000 256 256 x W1) e) (shapeCast S1x256 b1 shapeCasts_S256_S1x256))

/-- Both layers. -/
def gcn (x : FVec Ideal S50000x256 .f32) (e : IVec S2x800000 32) (W1 : FVec Ideal S256x256 .f32) (b1 : FVec Ideal S256 .f32)
    (W2 : FVec Ideal S256x128 .f32) (b2 : FVec Ideal S128 .f32) : FVec Ideal S50000x128 .f32 :=
  logi (addRow 50000 128 (spread128 (matProd 50000 256 128 (hiddenLayer x e W1 b1) W2) e) (shapeCast S1x128 b2 shapeCasts_S128_S1x128))

end Cert.Gcn

end
-- ==== Proof.LibPlainDot.lean ====
/-
  A matrix product with the plain dimension numbers — `M × K` by `K × N`, the left operand contracted on its
  second axis and the right on its first, no batch axis — read at an output index `(i, j)` at the ideal values:
  the sum over `k : Fin K` of `l (i, k) · r (k, j)`.

  `Ideal.matmul_constant_zero_apply` and `Ideal.dotGeneral_apply` give the sum over the record's own
  contraction index type, with the operand indices named by `lhsIdx` / `rhsIdx`. For the record `DotDims.plain M K N`
  those indices have the coordinates one expects, and its contraction index is one coordinate below `K`, so the sum
  re-indexes over `Fin K`. A printed program's record with these dimension numbers is `DotDims.plain` at its extents by
  `rfl` (the fields are the same lists, and the well-formedness field is a proof), so the lemmas apply to it after a
  `show`. Stated for any `M K N`: nothing here depends on the extents.
-/
import Idealize.ShloMosaic.PureOps.Ideal.Laws
import Idealize.ShloMosaic.Lib.ValueIdx

noncomputable section

namespace Idealize.ShloMosaic.PlainDot

open Idealize.ShloMosaic Idealize.ShloMosaic.ValueIdx

variable (M K N : Nat)

/-- The left operand's row is the output's row. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction coordinate. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction coordinate. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column is the output's column. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction sum of a plain product at `i`, over `Fin K`. -/
theorem sum_contr {α : Type*} [AddCommMonoid α] [Mul α] (l : (⟨2, ![M, K]⟩ : Shape).Idx → α) (r : (⟨2, ![K, N]⟩ : Shape).Idx → α)
    (i : (⟨2, ![M, N]⟩ : Shape).Idx) :
    ∑ q : (DotDims.plain M K N).contr.Idx, l ((DotDims.plain M K N).lhsIdx i q) * r ((DotDims.plain M K N).rhsIdx i q)
      = ∑ k : Fin K, l (ix2 (i 0) k) * r (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact lhs_row M K N _ _
      | ⟨1, _⟩ => exact (lhs_col M K N _ _).trans hk)
  have er : (DotDims.plain M K N).rhsIdx i ((contrEquiv1 (DotDims.plain M K N) K rfl rfl).symm k) = ix2 k (i 1) :=
    funext fun a => Fin.ext (by
      match a with
      | ⟨0, _⟩ => exact (rhs_row M K N _ _).trans hk
      | ⟨1, _⟩ => exact rhs_col M K N _ _)
  rw [el, er]
  rfl

/-- A `tpu.matmul` with the plain dimension numbers into the zero accumulator, read at `i`. -/
theorem matmul_zero_apply {φ₁ φ₂ : FTy} (prec : Option ContractPrecision) (l : FVec Ideal ⟨2, ![M, K]⟩ φ₁)
    (r : FVec Ideal ⟨2, ![K, N]⟩ φ₂) (i : (⟨2, ![M, N]⟩ : Shape).Idx) :
    matmul (DotDims.plain M K N) prec l r (constant ⟨2, ![M, N]⟩ .f32 0x00000000#32) i
      = ∑ k : Fin K, l (ix2 (i 0) k) * r (ix2 k (i 1)) :=
  (Ideal.matmul_constant_zero_apply (DotDims.plain M K N) prec l r i).trans (sum_contr M K N l r i)

end Idealize.ShloMosaic.PlainDot

end
-- ==== Proof.Region0.lean ====
/-
  The first matrix-product kernel as ONE function of whole arrays.

  The kernel runs over 25 blocks of 2000 rows.  At a block it multiplies the block's 2000 rows of the left matrix by the
  whole right matrix (the narrowing of the operands to a shorter float format is the identity on extended reals, and
  a product accumulated into zero is the plain sum over the contracted index).  Row `p` of block `t` is row
  `2000 t + p` of the left matrix, so what the block writes back is block `t` of the whole product; the 25 blocks tile
  the 50000 rows, so the output array ends at the product of the two arrays.
-/
import proofs.«142644_j26405458936016_1_alg».proof.Proof.Gen.KernelIdeal.Frame
import proofs.«142644_j26405458936016_1_alg».proof.Proof.Spec
import proofs.«142644_j26405458936016_1_alg».proof.Proof.LibPlainDot
import Idealize.ShloMosaic.Lib.Pipeline.Value
import Idealize.ShloMosaic.Lib.ValueIdx

set_option maxRecDepth 16384
noncomputable section

namespace Cert.KernelIdeal.RegionValue

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Gcn

variable (V : (c : Dev nD) → (b : Ref sig .tc) → Buf (Elt Ideal) ((c : Thread nD τ).loc b))

/-- The two matrices as the region finds them, at their literal types. -/
abbrev lhs0 (c : Dev nD) : FVec Ideal S50000x256 .f32 := V c main_arg0
abbrev rhs0 (c : Dev nD) : FVec Ideal S256x256 .f32 := V c main_arg2

theorem origin0 : (![0, 0] : Fin 2 → Nat) = fun _ => 0 := funext fun a => by fin_cases a <;> rfl

/-- The body's stored value at `(p, q)` of the block: the sum over `k` of the left block's `(p, k)` times the right
    matrix's `(k, q)`. -/
theorem pay0_apply (x0 : Vec Ideal S2000x256 .f32) (x1 : Vec Ideal S256x256 .f32) (p : Fin 2000) (q : Fin 256) :
    k0_pay1 x0 x1 (ix2 p q) = ∑ k : Fin 256, x0 (ix2 p k) * x1 (ix2 k q) := by
  unfold k0_pay1
  exact PlainDot.matmul_zero_apply 2000 256 256 none _ _ (ix2 p q)

/-- The index maps over the grid: the left matrix's block and the output's block are block `t` of their arrays, the
    right matrix is its whole array at every point. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product. -/
theorem flushed0_eq (c : Dev nD) (t : Fin cfg0.N) :
    (dat0 V c).flushed 2 t
      = ((cfg0.win 2).blk t).view.read (Elt Ideal) (matProd 50000 256 256 (lhs0 V c) (rhs0 V c)) := by
  show (cfg0.win 2).cut (grid0.coords t) ((dat0 V c).after 2 t) = _
  rw [after0_2]
  unfold out0_2
  rw [View.canon_unit_zero origin0]
  simp only [View.ld_unit_zero (S := S2000x256) origin0, View.ld_unit_zero (S := S256x256) origin0]
  obtain ⟨e0, e1, e2, e3, e4, e5⟩ := idx_facts0 t
  funext j
  obtain ⟨p, q, rfl⟩ : ∃ (p : Fin 2000) (q : Fin 256), j = ix2 p q := ⟨j 0, j 1, eq_ix2 j⟩
  show k0_pay1 (iblk0 V c 0 t) (iblk0 V c 1 t) (ix2 p q) = _
  rw [pay0_apply]
  show ∑ k : Fin 256, lhs0 V c (((cfg0.win 0).blk t).view.emb (ix2 p k)) * rhs0 V c (((cfg0.win 1).blk t).view.emb (ix2 k q))
    = ∑ k : Fin 256, lhs0 V c (ix2 ((((cfg0.win 2).blk t).view.emb (ix2 p q)) 0 : Fin 50000) k)
        * rhs0 V c (ix2 k ((((cfg0.win 2).blk t).view.emb (ix2 p q)) 1 : Fin 256))
  refine Finset.sum_congr rfl fun k _ => ?_
  have h0 : ((cfg0.win 0).blk t).view.emb (ix2 p k)
      = ix2 ((((cfg0.win 2).blk t).view.emb (ix2 p q)) 0 : Fin 50000) k := by
    funext a; apply Fin.ext
    match a with
    | ⟨0, _⟩ => show win0_0.index t (0 : Fin 2) * 2000 + 1 * p.val = win0_2.index t (0 : Fin 2) * 2000 + 1 * p.val; omega
    | ⟨1, _⟩ => show win0_0.index t (1 : Fin 2) * 256 + 1 * k.val = k.val; omega
  have h1 : ((cfg0.win 1).blk t).view.emb (ix2 k q)
      = ix2 k ((((cfg0.win 2).blk t).view.emb (ix2 p q)) 1 : Fin 256) := by
    funext a; apply Fin.ext
    match a with
    | ⟨0, _⟩ => show win0_1.index t (0 : Fin 2) * 256 + 1 * k.val = k.val; omega
    | ⟨1, _⟩ => show win0_1.index t (1 : Fin 2) * 256 + 1 * q.val = win0_2.index t (1 : Fin 2) * 256 + 1 * q.val; omega
  rw [h0, h1]
  rfl

/-- An index of the output array is in point `t`'s block iff its row is among the block's 2000 rows. -/
theorem mem_blk0 (t : Fin cfg0.N) (i : S50000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v0).slice (win0_2.rect t)).set ↔ _
  rw [View.set_slice_whole, Rect.mem_set_unit]
  exact Iff.rfl

/-- Every index of the output array lies in the block of the point `row / 2000`. -/
theorem cover0 (i : S50000x256.Idx) : ∃ t : Fin cfg0.N, (cfg0.win 2).flush t = true ∧ i ∈ ((cfg0.win 2).blk t).view.set := by
  have hi0 : (i 0).val < 50000 := (i 0).isLt
  have hi1 : (i 1).val < 256 := (i 1).isLt
  let t : Fin cfg0.N := ⟨(i 0).val / 2000, by rw [show cfg0.N = 25 from N_0]; omega⟩
  obtain ⟨e0, e1, e2, e3, e4, e5⟩ := idx_facts0 t
  have e4' : win0_2.index t (0 : Fin 2) = (i 0).val / 2000 := e4
  refine ⟨t, flush0_2 t, ?_⟩
  rw [mem_blk0]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 256 ≤ (i 1).val ∧ (i 1).val < win0_2.index t (1 : Fin 2) * 256 + 256; omega

/-- The output array after the region: the product of the two arrays as the region finds them. -/
theorem final0 (c : Dev nD) :
    (dat0 V c).arrAt 2 cfg0.N = matProd 50000 256 256 (lhs0 V c) (rhs0 V c) :=
  (dat0 V c).arrAt_eq_of_cover 2 _ (fun t _ => flushed0_eq V c t) (cover0)

end Cert.KernelIdeal.RegionValue

end
-- ==== Proof.LibRowBias.lean ====
/-
  One row added to every row of a matrix, in the two spellings a kernel and a host program give it, each read at an
  entry `(p, q)`: both are the matrix's entry plus the row's entry `q`.  Also a vector of `n` entries cast to a
  one-row matrix, and laid along axis 1 of a one-row matrix: both read at `(0, q)` are the vector's entry `q`.
  Stated for any extents.
-/
import Idealize.ShloMosaic.Lib.Pipeline.Value
import Idealize.ShloMosaic.Lib.ValueIdx
import Idealize.ShloMosaic.Lib.ValueLayout
import Idealize.ShloMosaic.Lib.KernelVsHost

noncomputable section

namespace Idealize.ShloMosaic.RowBias

open Idealize.ShloMosaic Idealize.ShloMosaic.ValueIdx

variable {a b : ℕ}

/-- A kernel's spelling: the block (under an identity cast) plus the one-row operand (under an identity cast) broadcast down
    the rows. -/
theorem kernel_apply (x : FVec Ideal ⟨2, ![a, b]⟩ .f32) (v : FVec Ideal ⟨2, ![1, b]⟩ .f32)
    (h0 : (⟨2, ![a, b]⟩ : Shape).ShapeCasts ⟨2, ![a, b]⟩) (h1 : (⟨2, ![1, b]⟩ : Shape).ShapeCasts ⟨2, ![1, b]⟩)
    (hb : (⟨2, ![1, b]⟩ : Shape).Broadcasts ⟨2, ![a, b]⟩) (p : Fin a) (q : Fin b) :
    addf (shapeCast ⟨2, ![a, b]⟩ x h0) (broadcastTo ⟨2, ![a, b]⟩ (shapeCast ⟨2, ![1, b]⟩ v h1) hb) (ix2 p q)
      = x (ix2 p q) + v (ix2 (0 : Fin 1) q) := by
  rw [addf_apply, shapeCast_self, shapeCast_self, broadcastTo_1b_ab_apply]

/-- A host program's spelling: the matrix plus the one-row matrix broadcast along both axes. -/
theorem host_apply (x : FVec Ideal ⟨2, ![a, b]⟩ .f32) (v : FVec Ideal ⟨2, ![1, b]⟩ .f32)
    (hbc : (⟨2, ![1, b]⟩ : Shape).BroadcastsInDim ⟨2, ![a, b]⟩ ![0, 1]) (p : Fin a) (q : Fin b) :
    addf x (broadcastInDim ⟨2, ![a, b]⟩ ![0, 1] hbc v) (ix2 p q) = x (ix2 p q) + v (ix2 (0 : Fin 1) q) := by
  rw [addf_apply, broadcastInDim_oneRow_apply]

/-- A vector cast to a one-row matrix, read at `(0, q)`. -/
theorem cast_row_apply {α : Type} (v : (⟨1, ![b]⟩ : Shape).Idx → α) (h : (⟨1, ![b]⟩ : Shape).ShapeCasts ⟨2, ![1, b]⟩) (q : Fin b) :
    shapeCast ⟨2, ![1, b]⟩ v h (ix2 (0 : Fin 1) q) = v (ix1 q) :=
  shapeCast_apply v h (ix2 (0 : Fin 1) q) (ix1 q) (by
    rw [Shape.rowMajor_val_two, Shape.rowMajor_val_one]; show q.val = 0 * b + q.val; omega)

/-- A vector laid along axis 1 of a one-row matrix, read at `(0, q)`. -/
theorem bcast_row_apply {α : Type} (v : (⟨1, ![b]⟩ : Shape).Idx → α) (h : (⟨1, ![b]⟩ : Shape).BroadcastsInDim ⟨2, ![1, b]⟩ ![1]) (q : Fin b) :
    broadcastInDim ⟨2, ![1, b]⟩ ![1] h v (ix2 (0 : Fin 1) q) = v (ix1 q) :=
  broadcastInDim_apply ![1] h v (ix2 (0 : Fin 1) q) (ix1 q) (by
    intro ax
    match ax with
    | ⟨0, _⟩ =>
      show q.val = if b = 1 then 0 else q.val
      split
      · have := q.isLt; omega
      · rfl)

/-- So the two one-row matrices made from a vector are one matrix. -/
theorem cast_row_eq_bcast_row {α : Type} (v : (⟨1, ![b]⟩ : Shape).Idx → α) (h : (⟨1, ![b]⟩ : Shape).ShapeCasts ⟨2, ![1, b]⟩)
    (h' : (⟨1, ![b]⟩ : Shape).BroadcastsInDim ⟨2, ![1, b]⟩ ![1]) :
    shapeCast ⟨2, ![1, b]⟩ v h = broadcastInDim ⟨2, ![1, b]⟩ ![1] h' v := by
  funext j
  obtain ⟨r, q, rfl⟩ : ∃ (r : Fin 1) (q : Fin b), j = ix2 r q := ⟨j 0, j 1, eq_ix2 j⟩
  have hr : r = 0 := Subsingleton.elim _ _
  subst hr
  rw [cast_row_apply, bcast_row_apply]

end Idealize.ShloMosaic.RowBias

end
-- ==== Proof.Region1.lean ====
/-
  The first bias kernel as ONE function of whole arrays.

  The kernel runs over ten blocks of 5000 rows.  At a block it adds the one-row bias to every row of the block of the
  aggregated features and clamps the result at zero.  The bias is the same one row at every block, and block `t` of
  the features is rows `5000 t … 5000 t + 4999`, so what the block writes back is block `t` of the whole-array function
  "clamp (features + bias row)"; the ten blocks tile the 50000 rows, so the output array ends at that function.
-/
import proofs.«142644_j26405458936016_1_alg».proof.Proof.Gen.KernelIdeal.Frame
import proofs.«142644_j26405458936016_1_alg».proof.Proof.Spec
import proofs.«142644_j26405458936016_1_alg».proof.Proof.LibRowBias
import Idealize.ShloMosaic.Lib.Pipeline.Value
import Idealize.ShloMosaic.Lib.ValueIdx

set_option maxRecDepth 16384
noncomputable section

namespace Cert.KernelIdeal.RegionValue

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Gcn

variable (V : (c : Dev nD) → (b : Ref sig .tc) → Buf (Elt Ideal) ((c : Thread nD τ).loc b))

/-- The aggregated features and the bias row as the region finds them, at their literal types. -/
abbrev feat1 (c : Dev nD) : FVec Ideal S50000x256 .f32 := V c main_v43
abbrev bias1 (c : Dev nD) : FVec Ideal S1x256 .f32 := V c main_v44

theorem origin1 : (![0, 0] : Fin 2 → Nat) = fun _ => 0 := funext fun a => by fin_cases a <;> rfl

/-- The body's stored value at `(p, q)` of the block: the features' entry plus the bias row's entry `q`, clamped at zero. -/
theorem pay1_apply (x0 : Vec Ideal S5000x256 .f32) (x1 : Vec Ideal S1x256 .f32) (p : Fin 5000) (q : Fin 256) :
    k1_pay1 x0 x1 (ix2 p q) = max (x0 (ix2 p q) + x1 (ix2 (0 : Fin 1) q)) 0 := by
  unfold k1_pay1
  rw [maximumf_apply, RowBias.kernel_apply, broadcast_apply]
  show max _ (Ideal.ofBits .f32 0x00000000#32) = _
  rw [Ideal.ofBits_zero_f32]

/-- The index maps over the grid: the features' block and the output's block are block `t` of their arrays, the bias
    is its whole array at every point. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the whole-array function. -/
theorem flushed1_eq (c : Dev nD) (t : Fin cfg1.N) :
    (dat1 V c).flushed 2 t
      = ((cfg1.win 2).blk t).view.read (Elt Ideal) (clamp0 (addRow 50000 256 (feat1 V c) (bias1 V c))) := by
  show (cfg1.win 2).cut (grid1.coords t) ((dat1 V c).after 2 t) = _
  rw [after1_2]
  unfold out1_2
  rw [View.canon_unit_zero origin1]
  simp only [View.ld_unit_zero (S := S5000x256) origin1, View.ld_unit_zero (S := S1x256) origin1]
  obtain ⟨e0, e1, e2, e3, e4, e5⟩ := idx_facts1 t
  funext j
  obtain ⟨p, q, rfl⟩ : ∃ (p : Fin 5000) (q : Fin 256), j = ix2 p q := ⟨j 0, j 1, eq_ix2 j⟩
  show k1_pay1 (iblk1 V c 0 t) (iblk1 V c 1 t) (ix2 p q) = _
  rw [pay1_apply]
  show max (feat1 V c (((cfg1.win 0).blk t).view.emb (ix2 p q)) + bias1 V c (((cfg1.win 1).blk t).view.emb (ix2 (0 : Fin 1) q))) 0
    = max (feat1 V c (((cfg1.win 2).blk t).view.emb (ix2 p q))
        + bias1 V c (ix2 (0 : Fin 1) ((((cfg1.win 2).blk t).view.emb (ix2 p q)) 1 : Fin 256))) 0
  have h0 : ((cfg1.win 0).blk t).view.emb (ix2 p q) = ((cfg1.win 2).blk t).view.emb (ix2 p q) := by
    funext a; apply Fin.ext
    match a with
    | ⟨0, _⟩ => show win1_0.index t (0 : Fin 2) * 5000 + 1 * p.val = win1_2.index t (0 : Fin 2) * 5000 + 1 * p.val; omega
    | ⟨1, _⟩ => show win1_0.index t (1 : Fin 2) * 256 + 1 * q.val = win1_2.index t (1 : Fin 2) * 256 + 1 * q.val; omega
  have h1 : ((cfg1.win 1).blk t).view.emb (ix2 (0 : Fin 1) q)
      = ix2 (0 : Fin 1) ((((cfg1.win 2).blk t).view.emb (ix2 p q)) 1 : Fin 256) := by
    funext a; apply Fin.ext
    match a with
    | ⟨0, _⟩ => show win1_1.index t (0 : Fin 2) * 1 + 1 * 0 = 0; omega
    | ⟨1, _⟩ => show win1_1.index t (1 : Fin 2) * 256 + 1 * q.val = win1_2.index t (1 : Fin 2) * 256 + 1 * q.val; omega
  rw [h0, h1]
  rfl

/-- An index of the output array is in point `t`'s block iff its row is among the block's 5000 rows. -/
theorem mem_blk1 (t : Fin cfg1.N) (i : S50000x256.Idx) :
    i ∈ ((cfg1.win 2).blk t).view.set ↔ ∀ a : Fin 2, win1_2.index t a * S5000x256.size a ≤ (i a).val ∧ (i a).val < win1_2.index t a * S5000x256.size a + S5000x256.size a := by
  show i ∈ ((View.whole main_v45).slice (win1_2.rect t)).set ↔ _
  rw [View.set_slice_whole, Rect.mem_set_unit]
  exact Iff.rfl

/-- Every index of the output array lies in the block of the point `row / 5000`. -/
theorem cover1 (i : S50000x256.Idx) : ∃ t : Fin cfg1.N, (cfg1.win 2).flush t = true ∧ i ∈ ((cfg1.win 2).blk t).view.set := by
  have hi0 : (i 0).val < 50000 := (i 0).isLt
  have hi1 : (i 1).val < 256 := (i 1).isLt
  let t : Fin cfg1.N := ⟨(i 0).val / 5000, by rw [show cfg1.N = 10 from N_1]; omega⟩
  obtain ⟨e0, e1, e2, e3, e4, e5⟩ := idx_facts1 t
  have e4' : win1_2.index t (0 : Fin 2) = (i 0).val / 5000 := e4
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 256 ≤ (i 1).val ∧ (i 1).val < win1_2.index t (1 : Fin 2) * 256 + 256; omega

/-- The output array after the region: the clamp of (features + bias row), at the region's entry contents. -/
theorem final1 (c : Dev nD) :
    (dat1 V c).arrAt 2 cfg1.N = clamp0 (addRow 50000 256 (feat1 V c) (bias1 V c)) :=
  (dat1 V c).arrAt_eq_of_cover 2 _ (fun t _ => flushed1_eq V c t) (cover1)

end Cert.KernelIdeal.RegionValue

end
-- ==== Proof.Region2.lean ====
/-
  The second matrix-product kernel as ONE function of whole arrays.

  The kernel runs over 25 blocks of 2000 rows.  At a block it multiplies the block's 2000 rows of the left matrix by the
  whole right matrix (the cast of the block to its own shape and the narrowing of the operands to a shorter float format is the identity on extended reals, and
  a product accumulated into zero is the plain sum over the contracted index).  Row `p` of block `t` is row
  `2000 t + p` of the left matrix, so what the block writes back is block `t` of the whole product; the 25 blocks tile
  the 50000 rows, so the output array ends at the product of the two arrays.
-/
import proofs.«142644_j26405458936016_1_alg».proof.Proof.Gen.KernelIdeal.Frame
import proofs.«142644_j26405458936016_1_alg».proof.Proof.Spec
import proofs.«142644_j26405458936016_1_alg».proof.Proof.LibPlainDot
import Idealize.ShloMosaic.Lib.Pipeline.Value
import Idealize.ShloMosaic.Lib.ValueIdx

set_option maxRecDepth 16384
noncomputable section

namespace Cert.KernelIdeal.RegionValue

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Gcn

variable (V : (c : Dev nD) → (b : Ref sig .tc) → Buf (Elt Ideal) ((c : Thread nD τ).loc b))

/-- The two matrices as the region finds them, at their literal types. -/
abbrev lhs2 (c : Dev nD) : FVec Ideal S50000x256 .f32 := V c main_v45
abbrev rhs2 (c : Dev nD) : FVec Ideal S256x128 .f32 := V c main_arg4

theorem origin2 : (![0, 0] : Fin 2 → Nat) = fun _ => 0 := funext fun a => by fin_cases a <;> rfl

/-- The body's stored value at `(p, q)` of the block: the sum over `k` of the left block's `(p, k)` times the right
    matrix's `(k, q)`. -/
theorem pay2_apply (x0 : Vec Ideal S2000x256 .f32) (x1 : Vec Ideal S256x128 .f32) (p : Fin 2000) (q : Fin 128) :
    k2_pay1 x0 x1 (ix2 p q) = ∑ k : Fin 256, x0 (ix2 p k) * x1 (ix2 k q) := by
  unfold k2_pay1
  rw [shapeCast_self]
  exact PlainDot.matmul_zero_apply 2000 256 128 none _ _ (ix2 p q)

/-- The index maps over the grid: the left matrix's block and the output's block are block `t` of their arrays, the
    right matrix is its whole array at every point. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the whole product. -/
theorem flushed2_eq (c : Dev nD) (t : Fin cfg2.N) :
    (dat2 V c).flushed 2 t
      = ((cfg2.win 2).blk t).view.read (Elt Ideal) (matProd 50000 256 128 (lhs2 V c) (rhs2 V c)) := by
  show (cfg2.win 2).cut (grid2.coords t) ((dat2 V c).after 2 t) = _
  rw [after2_2]
  unfold out2_2
  rw [View.canon_unit_zero origin2]
  simp only [View.ld_unit_zero (S := S2000x256) origin2, View.ld_unit_zero (S := S256x128) origin2]
  obtain ⟨e0, e1, e2, e3, e4, e5⟩ := idx_facts2 t
  funext j
  obtain ⟨p, q, rfl⟩ : ∃ (p : Fin 2000) (q : Fin 128), j = ix2 p q := ⟨j 0, j 1, eq_ix2 j⟩
  show k2_pay1 (iblk2 V c 0 t) (iblk2 V c 1 t) (ix2 p q) = _
  rw [pay2_apply]
  show ∑ k : Fin 256, lhs2 V c (((cfg2.win 0).blk t).view.emb (ix2 p k)) * rhs2 V c (((cfg2.win 1).blk t).view.emb (ix2 k q))
    = ∑ k : Fin 256, lhs2 V c (ix2 ((((cfg2.win 2).blk t).view.emb (ix2 p q)) 0 : Fin 50000) k)
        * rhs2 V c (ix2 k ((((cfg2.win 2).blk t).view.emb (ix2 p q)) 1 : Fin 128))
  refine Finset.sum_congr rfl fun k _ => ?_
  have h0 : ((cfg2.win 0).blk t).view.emb (ix2 p k)
      = ix2 ((((cfg2.win 2).blk t).view.emb (ix2 p q)) 0 : Fin 50000) k := by
    funext a; apply Fin.ext
    match a with
    | ⟨0, _⟩ => show win2_0.index t (0 : Fin 2) * 2000 + 1 * p.val = win2_2.index t (0 : Fin 2) * 2000 + 1 * p.val; omega
    | ⟨1, _⟩ => show win2_0.index t (1 : Fin 2) * 256 + 1 * k.val = k.val; omega
  have h1 : ((cfg2.win 1).blk t).view.emb (ix2 k q)
      = ix2 k ((((cfg2.win 2).blk t).view.emb (ix2 p q)) 1 : Fin 128) := by
    funext a; apply Fin.ext
    match a with
    | ⟨0, _⟩ => show win2_1.index t (0 : Fin 2) * 256 + 1 * k.val = k.val; omega
    | ⟨1, _⟩ => show win2_1.index t (1 : Fin 2) * 128 + 1 * q.val = win2_2.index t (1 : Fin 2) * 128 + 1 * q.val; omega
  rw [h0, h1]
  rfl

/-- An index of the output array is in point `t`'s block iff its row is among the block's 2000 rows. -/
theorem mem_blk2 (t : Fin cfg2.N) (i : S50000x128.Idx) :
    i ∈ ((cfg2.win 2).blk t).view.set ↔ ∀ a : Fin 2, win2_2.index t a * S2000x128.size a ≤ (i a).val ∧ (i a).val < win2_2.index t a * S2000x128.size a + S2000x128.size a := by
  show i ∈ ((View.whole main_v46).slice (win2_2.rect t)).set ↔ _
  rw [View.set_slice_whole, Rect.mem_set_unit]
  exact Iff.rfl

/-- Every index of the output array lies in the block of the point `row / 2000`. -/
theorem cover2 (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  let t : Fin cfg2.N := ⟨(i 0).val / 2000, by rw [show cfg2.N = 25 from N_2]; omega⟩
  obtain ⟨e0, e1, e2, e3, e4, e5⟩ := idx_facts2 t
  have e4' : win2_2.index t (0 : Fin 2) = (i 0).val / 2000 := e4
  refine ⟨t, flush2_2 t, ?_⟩
  rw [mem_blk2]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 128 ≤ (i 1).val ∧ (i 1).val < win2_2.index t (1 : Fin 2) * 128 + 128; omega

/-- The output array after the region: the product of the two arrays as the region finds them. -/
theorem final2 (c : Dev nD) :
    (dat2 V c).arrAt 2 cfg2.N = matProd 50000 256 128 (lhs2 V c) (rhs2 V c) :=
  (dat2 V c).arrAt_eq_of_cover 2 _ (fun t _ => flushed2_eq V c t) (cover2)

end Cert.KernelIdeal.RegionValue

end
-- ==== Proof.Region3.lean ====
/-
  The second bias kernel as ONE function of whole arrays.

  The kernel runs over ten blocks of 5000 rows.  At a block it adds the one-row bias to every row of the block of the
  aggregated features and applies the logistic function.  The bias is the same one row at every block, and block `t` of
  the features is rows `5000 t … 5000 t + 4999`, so what the block writes back is block `t` of the whole-array function
  "logistic (features + bias row)"; the ten blocks tile the 50000 rows, so the output array ends at that function.
-/
import proofs.«142644_j26405458936016_1_alg».proof.Proof.Gen.KernelIdeal.Frame
import proofs.«142644_j26405458936016_1_alg».proof.Proof.Spec
import proofs.«142644_j26405458936016_1_alg».proof.Proof.LibRowBias
import Idealize.ShloMosaic.Lib.Pipeline.Value
import Idealize.ShloMosaic.Lib.ValueIdx

set_option maxRecDepth 16384
noncomputable section

namespace Cert.KernelIdeal.RegionValue

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Gcn

variable (V : (c : Dev nD) → (b : Ref sig .tc) → Buf (Elt Ideal) ((c : Thread nD τ).loc b))

/-- The aggregated features and the bias row as the region finds them, at their literal types. -/
abbrev feat3 (c : Dev nD) : FVec Ideal S50000x128 .f32 := V c main_v89
abbrev bias3 (c : Dev nD) : FVec Ideal S1x128 .f32 := V c main_v90

theorem origin3 : (![0, 0] : Fin 2 → Nat) = fun _ => 0 := funext fun a => by fin_cases a <;> rfl

/-- The body's stored value at `(p, q)` of the block: the logistic function of the features' entry plus the bias row's entry `q`. -/
theorem pay3_apply (x0 : Vec Ideal S5000x128 .f32) (x1 : Vec Ideal S1x128 .f32) (p : Fin 5000) (q : Fin 128) :
    k3_pay1 x0 x1 (ix2 p q) = Ideal.logistic (x0 (ix2 p q) + x1 (ix2 (0 : Fin 1) q)) := by
  unfold k3_pay1
  exact congrArg Ideal.logistic (RowBias.kernel_apply x0 x1 _ _ _ p q)

/-- The index maps over the grid: the features' block and the output's block are block `t` of their arrays, the bias
    is its whole array at every point. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the whole-array function. -/
theorem flushed3_eq (c : Dev nD) (t : Fin cfg3.N) :
    (dat3 V c).flushed 2 t
      = ((cfg3.win 2).blk t).view.read (Elt Ideal) (logi (addRow 50000 128 (feat3 V c) (bias3 V c))) := by
  show (cfg3.win 2).cut (grid3.coords t) ((dat3 V c).after 2 t) = _
  rw [after3_2]
  unfold out3_2
  rw [View.canon_unit_zero origin3]
  simp only [View.ld_unit_zero (S := S5000x128) origin3, View.ld_unit_zero (S := S1x128) origin3]
  obtain ⟨e0, e1, e2, e3, e4, e5⟩ := idx_facts3 t
  funext j
  obtain ⟨p, q, rfl⟩ : ∃ (p : Fin 5000) (q : Fin 128), j = ix2 p q := ⟨j 0, j 1, eq_ix2 j⟩
  show k3_pay1 (iblk3 V c 0 t) (iblk3 V c 1 t) (ix2 p q) = _
  rw [pay3_apply]
  show Ideal.logistic (feat3 V c (((cfg3.win 0).blk t).view.emb (ix2 p q)) + bias3 V c (((cfg3.win 1).blk t).view.emb (ix2 (0 : Fin 1) q)))
    = Ideal.logistic (feat3 V c (((cfg3.win 2).blk t).view.emb (ix2 p q))
        + bias3 V c (ix2 (0 : Fin 1) ((((cfg3.win 2).blk t).view.emb (ix2 p q)) 1 : Fin 128)))
  have h0 : ((cfg3.win 0).blk t).view.emb (ix2 p q) = ((cfg3.win 2).blk t).view.emb (ix2 p q) := by
    funext a; apply Fin.ext
    match a with
    | ⟨0, _⟩ => show win3_0.index t (0 : Fin 2) * 5000 + 1 * p.val = win3_2.index t (0 : Fin 2) * 5000 + 1 * p.val; omega
    | ⟨1, _⟩ => show win3_0.index t (1 : Fin 2) * 128 + 1 * q.val = win3_2.index t (1 : Fin 2) * 128 + 1 * q.val; omega
  have h1 : ((cfg3.win 1).blk t).view.emb (ix2 (0 : Fin 1) q)
      = ix2 (0 : Fin 1) ((((cfg3.win 2).blk t).view.emb (ix2 p q)) 1 : Fin 128) := by
    funext a; apply Fin.ext
    match a with
    | ⟨0, _⟩ => show win3_1.index t (0 : Fin 2) * 1 + 1 * 0 = 0; omega
    | ⟨1, _⟩ => show win3_1.index t (1 : Fin 2) * 128 + 1 * q.val = win3_2.index t (1 : Fin 2) * 128 + 1 * q.val; omega
  rw [h0, h1]
  rfl

/-- An index of the output array is in point `t`'s block iff its row is among the block's 5000 rows. -/
theorem mem_blk3 (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v91).slice (win3_2.rect t)).set ↔ _
  rw [View.set_slice_whole, Rect.mem_set_unit]
  exact Iff.rfl

/-- Every index of the output array lies in the block of the point `row / 5000`. -/
theorem cover3 (i : S50000x128.Idx) : ∃ t : Fin cfg3.N, (cfg3.win 2).flush t = true ∧ i ∈ ((cfg3.win 2).blk t).view.set := by
  have hi0 : (i 0).val < 50000 := (i 0).isLt
  have hi1 : (i 1).val < 128 := (i 1).isLt
  let t : Fin cfg3.N := ⟨(i 0).val / 5000, by rw [show cfg3.N = 10 from N_3]; omega⟩
  obtain ⟨e0, e1, e2, e3, e4, e5⟩ := idx_facts3 t
  have e4' : win3_2.index t (0 : Fin 2) = (i 0).val / 5000 := e4
  refine ⟨t, flush3_2 t, ?_⟩
  rw [mem_blk3]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- The output array after the region: the logistic function of (features + bias row), at the region's entry contents. -/
theorem final3 (c : Dev nD) :
    (dat3 V c).arrAt 2 cfg3.N = logi (addRow 50000 128 (feat3 V c) (bias3 V c)) :=
  (dat3 V c).arrAt_eq_of_cover 2 _ (fun t _ => flushed3_eq V c t) (cover3)

end Cert.KernelIdeal.RegionValue

end
-- ==== Proof.HostChain1.lean ====
/-
  The host operations between the first matrix product and the first bias kernel, read back: from any contents of
  the buffers, and for any float values, the bias kernel's features operand ends at the spreading of the product along
  the edges, its bias operand at the bias vector cast to one row, and an argument array nothing writes is as it was.
-/
import proofs.«142644_j26405458936016_1_alg».proof.Proof.Gen.KernelIdeal.Launch
import proofs.«142644_j26405458936016_1_alg».proof.Proof.Spread
import Idealize.ShloMosaic.Lib.StableHlo.Run

set_option maxRecDepth 16384
set_option maxHeartbeats 4000000
noncomputable section

namespace Cert.KernelIdeal.HostValue

open Idealize.ShloMosaic Idealize.ShloMosaic.TcCoe Idealize.ShloMosaic.StableHlo Idealize.SL.Sem
open Cert.KernelIdeal Cert.KernelIdeal.Gen Cert.Gcn

variable {F : FTy → Type} [FloatOps F]

/-- What a buffer holds after the three stretches: every operation's result at its own buffer is its function of its
    operands' contents, and a buffer it does not write holds what it held — also under the operand list of a
    concatenation. -/
local macro "read_results1" : tactic =>
  `(tactic| (after_results_simp
             repeat (first
               | rw [nullary_result] | rw [unary_result] | rw [binary_result] | rw [ternary_result] | rw [reshape_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide))))

/-- The bias kernel's features operand. -/
theorem features1 (Vin : Valuation τ sig (Elt F)) :
    StableHlo.after hostOps1_2 (StableHlo.after hostOps1_1 (StableHlo.after hostOps1 Vin)) (Proc.devRef .tc main_v43)
      = spread256 (F := F) (Vin (Proc.devRef .tc main_v0)) (Vin (Proc.devRef .tc main_arg1)) := by
  read_results1
  rfl

/-- The bias kernel's bias operand. -/
theorem biasRow1 (Vin : Valuation τ sig (Elt F)) :
    StableHlo.after hostOps1_2 (StableHlo.after hostOps1_1 (StableHlo.after hostOps1 Vin)) (Proc.devRef .tc main_v44)
      = shapeCast S1x256 (Vin (Proc.devRef .tc main_arg3)) shapeCasts_S256_S1x256 := by
  after_results_simp
  rfl

/-- No operation of the three stretches writes `main_arg1`. -/
theorem kept1_arg1 (Vin : Valuation τ sig (Elt F)) :
    StableHlo.after hostOps1_2 (StableHlo.after hostOps1_1 (StableHlo.after hostOps1 Vin)) (Proc.devRef .tc main_arg1)
      = Vin (Proc.devRef .tc main_arg1) := by
  after_results_simp

/-- No operation of the three stretches writes `main_arg4`. -/
theorem kept1_arg4 (Vin : Valuation τ sig (Elt F)) :
    StableHlo.after hostOps1_2 (StableHlo.after hostOps1_1 (StableHlo.after hostOps1 Vin)) (Proc.devRef .tc main_arg4)
      = Vin (Proc.devRef .tc main_arg4) := by
  after_results_simp

/-- No operation of the three stretches writes `main_arg5`. -/
theorem kept1_arg5 (Vin : Valuation τ sig (Elt F)) :
    StableHlo.after hostOps1_2 (StableHlo.after hostOps1_1 (StableHlo.after hostOps1 Vin)) (Proc.devRef .tc main_arg5)
      = Vin (Proc.devRef .tc main_arg5) := by
  after_results_simp

end Cert.KernelIdeal.HostValue

end
-- ==== Proof.HostChain2.lean ====
/-
  The host operations between the second matrix product and the second bias kernel, read back: from any contents of
  the buffers, and for any float values, the bias kernel's features operand ends at the spreading of the product along
  the edges, its bias operand at the bias vector cast to one row, and an argument array nothing writes is as it was.
-/
import proofs.«142644_j26405458936016_1_alg».proof.Proof.Gen.KernelIdeal.Launch
import proofs.«142644_j26405458936016_1_alg».proof.Proof.Spread
import Idealize.ShloMosaic.Lib.StableHlo.Run

set_option maxRecDepth 16384
set_option maxHeartbeats 4000000
noncomputable section

namespace Cert.KernelIdeal.HostValue

open Idealize.ShloMosaic Idealize.ShloMosaic.TcCoe Idealize.ShloMosaic.StableHlo Idealize.SL.Sem
open Cert.KernelIdeal Cert.KernelIdeal.Gen Cert.Gcn

variable {F : FTy → Type} [FloatOps F]

/-- What a buffer holds after the three stretches: every operation's result at its own buffer is its function of its
    operands' contents, and a buffer it does not write holds what it held — also under the operand list of a
    concatenation. -/
local macro "read_results2" : tactic =>
  `(tactic| (after_results_simp
             repeat (first
               | rw [nullary_result] | rw [unary_result] | rw [binary_result] | rw [ternary_result] | rw [reshape_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide))))

/-- The bias kernel's features operand. -/
theorem features2 (Vin : Valuation τ sig (Elt F)) :
    StableHlo.after hostOps3_2 (StableHlo.after hostOps3_1 (StableHlo.after hostOps3 Vin)) (Proc.devRef .tc main_v89)
      = spread128 (F := F) (Vin (Proc.devRef .tc main_v46)) (Vin (Proc.devRef .tc main_arg1)) := by
  read_results2
  rfl

/-- The bias kernel's bias operand. -/
theorem biasRow2 (Vin : Valuation τ sig (Elt F)) :
    StableHlo.after hostOps3_2 (StableHlo.after hostOps3_1 (StableHlo.after hostOps3 Vin)) (Proc.devRef .tc main_v90)
      = shapeCast S1x128 (Vin (Proc.devRef .tc main_arg5)) shapeCasts_S128_S1x128 := by
  after_results_simp
  rfl

end Cert.KernelIdeal.HostValue

end
-- ==== Proof.KernelValue.lean ====
/-
  The value of the kernel's program: what its result buffer holds at the last boundary of the run.

  The run's boundaries are read backwards.  The result is the second bias kernel's output, the logistic function of
  (its features + its bias row) at that kernel's entry contents; those features are the spreading of the second
  product along the edges and the bias row is the second bias vector, by the host operations before it; the second
  product is of the first bias kernel's output, which is the clamp of (the spreading of the first product + the first
  bias row); and the first product is of the two argument arrays.  No host operation and no kernel writes an argument,
  so each argument is read at its launch contents wherever it is met.
-/
import proofs.«142644_j26405458936016_1_alg».proof.Proof.Gen.KernelIdeal.Frame
import proofs.«142644_j26405458936016_1_alg».proof.Proof.Model
import proofs.«142644_j26405458936016_1_alg».proof.Proof.Region0
import proofs.«142644_j26405458936016_1_alg».proof.Proof.Region1
import proofs.«142644_j26405458936016_1_alg».proof.Proof.Region2
import proofs.«142644_j26405458936016_1_alg».proof.Proof.Region3
import proofs.«142644_j26405458936016_1_alg».proof.Proof.HostChain1
import proofs.«142644_j26405458936016_1_alg».proof.Proof.HostChain2

set_option maxRecDepth 16384
noncomputable section

namespace Cert.KernelIdeal.KernelValue

open Idealize.ShloMosaic Idealize.ShloMosaic.TcCoe Idealize.ShloMosaic.StableHlo Idealize.SL.Sem
open Cert.KernelIdeal Cert.KernelIdeal.Gen Cert.Gcn Cert.KernelIdeal.RegionValue Cert.KernelIdeal.HostValue

variable (m : (ℓ : Loc nD τ sig) → Buf (Elt Ideal) ℓ) (ρ : Dev nD → PrngReg)

/-! ## After the first product -/

/-- The first product's array. -/
theorem at1_product (c : Dev nD) :
    W1 m ρ c (Proc.devRef .tc main_v0)
      = matProd 50000 256 256 (m ((c : Thread nD τ).loc main_arg0)) (m ((c : Thread nD τ).loc main_arg2)) :=
  (W1_arr m ρ c 2).trans (final0 (V0 m ρ) c)

/-- An array the first kernel does not touch is as launched. -/
theorem at1_arg1 (c : Dev nD) : W1 m ρ c (Proc.devRef .tc main_arg1) = m ((c : Thread nD τ).loc main_arg1) :=
  W1_of_ne m ρ c main_arg1 (by decide)
theorem at1_arg3 (c : Dev nD) : W1 m ρ c (Proc.devRef .tc main_arg3) = m ((c : Thread nD τ).loc main_arg3) :=
  W1_of_ne m ρ c main_arg3 (by decide)
theorem at1_arg4 (c : Dev nD) : W1 m ρ c (Proc.devRef .tc main_arg4) = m ((c : Thread nD τ).loc main_arg4) :=
  W1_of_ne m ρ c main_arg4 (by decide)
theorem at1_arg5 (c : Dev nD) : W1 m ρ c (Proc.devRef .tc main_arg5) = m ((c : Thread nD τ).loc main_arg5) :=
  W1_of_ne m ρ c main_arg5 (by decide)

/-! ## At the first bias kernel's entry -/

theorem at4_features (c : Dev nD) :
    W4 m ρ c (Proc.devRef .tc main_v43)
      = spread256 (matProd 50000 256 256 (m ((c : Thread nD τ).loc main_arg0)) (m ((c : Thread nD τ).loc main_arg2)))
          (m ((c : Thread nD τ).loc main_arg1)) := by
  rw [← at1_product m ρ c, ← at1_arg1 m ρ c]
  exact features1 (W1 m ρ c)

theorem at4_bias (c : Dev nD) :
    W4 m ρ c (Proc.devRef .tc main_v44) = shapeCast S1x256 (m ((c : Thread nD τ).loc main_arg3)) shapeCasts_S256_S1x256 := by
  rw [← at1_arg3 m ρ c]
  exact biasRow1 (W1 m ρ c)

theorem at4_arg1 (c : Dev nD) : W4 m ρ c (Proc.devRef .tc main_arg1) = m ((c : Thread nD τ).loc main_arg1) :=
  (kept1_arg1 (W1 m ρ c)).trans (at1_arg1 m ρ c)
theorem at4_arg4 (c : Dev nD) : W4 m ρ c (Proc.devRef .tc main_arg4) = m ((c : Thread nD τ).loc main_arg4) :=
  (kept1_arg4 (W1 m ρ c)).trans (at1_arg4 m ρ c)
theorem at4_arg5 (c : Dev nD) : W4 m ρ c (Proc.devRef .tc main_arg5) = m ((c : Thread nD τ).loc main_arg5) :=
  (kept1_arg5 (W1 m ρ c)).trans (at1_arg5 m ρ c)

/-! ## After the first bias kernel, and after the second product -/

/-- The hidden features. -/
theorem at5_hidden (c : Dev nD) :
    W5 m ρ c (Proc.devRef .tc main_v45)
      = hiddenLayer (m ((c : Thread nD τ).loc main_arg0)) (m ((c : Thread nD τ).loc main_arg1))
          (m ((c : Thread nD τ).loc main_arg2)) (m ((c : Thread nD τ).loc main_arg3)) := by
  refine ((W5_arr m ρ c 2).trans (final1 (V4 m ρ) c)).trans ?_
  unfold hiddenLayer
  rw [← at4_features m ρ c, ← at4_bias m ρ c]

/-- The second product's array. -/
theorem at6_product (c : Dev nD) :
    W6 m ρ c (Proc.devRef .tc main_v46)
      = matProd 50000 256 128 (hiddenLayer (m ((c : Thread nD τ).loc main_arg0)) (m ((c : Thread nD τ).loc main_arg1))
          (m ((c : Thread nD τ).loc main_arg2)) (m ((c : Thread nD τ).loc main_arg3))) (m ((c : Thread nD τ).loc main_arg4)) := by
  refine ((W6_arr m ρ c 2).trans (final2 (V5 m ρ) c)).trans ?_
  rw [← at5_hidden m ρ c, ← at4_arg4 m ρ c, ← W5_of_ne m ρ c main_arg4 (by decide)]

theorem at6_arg1 (c : Dev nD) : W6 m ρ c (Proc.devRef .tc main_arg1) = m ((c : Thread nD τ).loc main_arg1) :=
  ((W6_of_ne m ρ c main_arg1 (by decide)).trans (W5_of_ne m ρ c main_arg1 (by decide))).trans (at4_arg1 m ρ c)
theorem at6_arg5 (c : Dev nD) : W6 m ρ c (Proc.devRef .tc main_arg5) = m ((c : Thread nD τ).loc main_arg5) :=
  ((W6_of_ne m ρ c main_arg5 (by decide)).trans (W5_of_ne m ρ c main_arg5 (by decide))).trans (at4_arg5 m ρ c)

/-! ## At the second bias kernel's entry, and the result -/

theorem at9_features (c : Dev nD) :
    W9 m ρ c (Proc.devRef .tc main_v89)
      = spread128 (matProd 50000 256 128 (hiddenLayer (m ((c : Thread nD τ).loc main_arg0)) (m ((c : Thread nD τ).loc main_arg1))
          (m ((c : Thread nD τ).loc main_arg2)) (m ((c : Thread nD τ).loc main_arg3))) (m ((c : Thread nD τ).loc main_arg4)))
          (m ((c : Thread nD τ).loc main_arg1)) := by
  rw [← at6_product m ρ c, ← at6_arg1 m ρ c]
  exact features2 (W6 m ρ c)

theorem at9_bias (c : Dev nD) :
    W9 m ρ c (Proc.devRef .tc main_v90) = shapeCast S1x128 (m ((c : Thread nD τ).loc main_arg5)) shapeCasts_S128_S1x128 := by
  rw [← at6_arg5 m ρ c]
  exact biasRow2 (W6 m ρ c)

/-- THE RESULT: the result buffer at the last boundary holds the two-layer convolution of the launch contents. -/
theorem result (c : Dev nD) :
    W10 m ρ c (Proc.devRef .tc main_v91)
      = gcn (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine ((W10_arr m ρ c 2).trans (final3 (V9 m ρ) c)).trans ?_
  unfold gcn
  rw [← at9_features m ρ c, ← at9_bias m ρ c]

end Cert.KernelIdeal.KernelValue

end
-- ==== Proof.RefBridge.lean ====
/-
  The host program's spellings of the pieces of a layer, each read to the whole-array function it is:
  a `dot_general` with the plain dimension numbers is the matrix product; the sum with a bias vector laid along
  axis 1 of a one-row matrix and broadcast down the rows, clamped against a zero splat, is the clamp of the matrix plus
  the bias row; and one over (one plus the exponential of the negation) is the logistic function.  All three at the
  extended reals, for any extents.
-/
import proofs.«142644_j26405458936016_1_alg».proof.Proof.Spec
import proofs.«142644_j26405458936016_1_alg».proof.Proof.LibPlainDot
import proofs.«142644_j26405458936016_1_alg».proof.Proof.LibRowBias
import Idealize.ShloMosaic.PureOps.Ideal.Laws
import Idealize.ShloMosaic.Lib.ValueIdx
import Idealize.ShloMosaic.Lib.IdealHost
import Idealize.ShloMosaic.Lib.KernelVsHost

noncomputable section

namespace Cert.Gcn

open Idealize.ShloMosaic Idealize.ShloMosaic.ValueIdx

/-- The host's product with the plain dimension numbers is the sum over the contracted index. -/
theorem dotGeneral_plain (M K N : ℕ) (x : FVec Ideal ⟨2, ![M, K]⟩ .f32) (w : FVec Ideal ⟨2, ![K, N]⟩ .f32) :
    Host.dotGeneral (DotDims.plain M K N) none x w = matProd M K N x w := by
  funext i
  show FloatOps.dotGeneral (DotDims.plain M K N) none _ x w i = _
  rw [Ideal.dotGeneral_apply]
  exact PlainDot.sum_contr M K N x w i

/-- The host's bias-and-clamp: the bias vector laid along a one-row matrix, broadcast down the rows, added, and the
    maximum taken with a zero splat. -/
theorem host_clamp (M N : ℕ) (a : FVec Ideal ⟨2, ![M, N]⟩ .f32) (b : FVec Ideal ⟨1, ![N]⟩ .f32)
    (h1 : (⟨2, ![1, N]⟩ : Shape).BroadcastsInDim ⟨2, ![M, N]⟩ ![0, 1]) (h2 : (⟨1, ![N]⟩ : Shape).BroadcastsInDim ⟨2, ![1, N]⟩ ![1])
    (h0 : (⟨0, ![]⟩ : Shape).BroadcastsInDim ⟨2, ![M, N]⟩ ![]) (hc : (⟨1, ![N]⟩ : Shape).ShapeCasts ⟨2, ![1, N]⟩) :
    maximumf (addf a (broadcastInDim ⟨2, ![M, N]⟩ ![0, 1] h1 (broadcastInDim ⟨2, ![1, N]⟩ ![1] h2 b)))
        (broadcastInDim ⟨2, ![M, N]⟩ ![] h0 (constant ⟨0, ![]⟩ .f32 0x00000000#32))
      = clamp0 (addRow M N a (shapeCast ⟨2, ![1, N]⟩ b hc)) := by
  funext i
  obtain ⟨p, q, rfl⟩ : ∃ (p : Fin M) (q : Fin N), i = ix2 p q := ⟨i 0, i 1, eq_ix2 i⟩
  rw [maximumf_apply, RowBias.host_apply, broadcastInDim_scalar_apply, constant_apply, Ideal.ofBits_zero_f32,
    RowBias.bcast_row_apply]
  show _ = max (a (ix2 p q) + shapeCast ⟨2, ![1, N]⟩ b hc (ix2 (0 : Fin 1) q)) 0
  rw [RowBias.cast_row_apply]

/-- The host's bias-and-logistic, the logistic function spelt `1 / (1 + exp (-y))` with the ones as splats. -/
theorem host_logistic (M N : ℕ) (a : FVec Ideal ⟨2, ![M, N]⟩ .f32) (b : FVec Ideal ⟨1, ![N]⟩ .f32)
    (h1 : (⟨2, ![1, N]⟩ : Shape).BroadcastsInDim ⟨2, ![M, N]⟩ ![0, 1]) (h2 : (⟨1, ![N]⟩ : Shape).BroadcastsInDim ⟨2, ![1, N]⟩ ![1])
    (h0 : (⟨0, ![]⟩ : Shape).BroadcastsInDim ⟨2, ![M, N]⟩ ![]) (hc : (⟨1, ![N]⟩ : Shape).ShapeCasts ⟨2, ![1, N]⟩) :
    Host.divf (broadcastInDim ⟨2, ![M, N]⟩ ![] h0 (constant ⟨0, ![]⟩ .f32 0x3F800000#32))
        (addf (broadcastInDim ⟨2, ![M, N]⟩ ![] h0 (constant ⟨0, ![]⟩ .f32 0x3F800000#32))
          (Host.exp (Host.negf (addf a (broadcastInDim ⟨2, ![M, N]⟩ ![0, 1] h1 (broadcastInDim ⟨2, ![1, N]⟩ ![1] h2 b))))))
      = logi (addRow M N a (shapeCast ⟨2, ![1, N]⟩ b hc)) := by
  funext i
  obtain ⟨p, q, rfl⟩ : ∃ (p : Fin M) (q : Fin N), i = ix2 p q := ⟨i 0, i 1, eq_ix2 i⟩
  show Ideal.div (broadcastInDim ⟨2, ![M, N]⟩ ![] h0 (constant (F := Ideal) ⟨0, ![]⟩ .f32 0x3F800000#32) (ix2 p q))
      (broadcastInDim ⟨2, ![M, N]⟩ ![] h0 (constant (F := Ideal) ⟨0, ![]⟩ .f32 0x3F800000#32) (ix2 p q)
        + Ideal.exp (-(addf a (broadcastInDim ⟨2, ![M, N]⟩ ![0, 1] h1 (broadcastInDim ⟨2, ![1, N]⟩ ![1] h2 b)) (ix2 p q))))
    = Ideal.logistic (a (ix2 p q) + shapeCast ⟨2, ![1, N]⟩ b hc (ix2 (0 : Fin 1) q))
  rw [broadcastInDim_scalar_apply, constant_apply, Ideal.ofBits_one_f32, RowBias.host_apply, RowBias.bcast_row_apply,
    RowBias.cast_row_apply]
  rfl

end Cert.Gcn

end
-- ==== Proof.RefValue.lean ====
/-
  The value of the reference program: the term its run ends at is the two-layer graph convolution of its arguments.

  The run's composed term is first folded: the two copies of the spreading along the edges that it spells out
  operation by operation are the one function this certificate names (the same operations, so the equation is by
  unfolding, for any float values).  Then, at the extended reals, the two `dot_general`s are matrix products, the
  first layer's sum, broadcast bias and maximum with zero is the clamp of (features + bias row), and the closing
  `1 / (1 + exp (-y))` is the logistic function.
-/
import proofs.«142644_j26405458936016_1_alg».proof.Proof.RefRun
import proofs.«142644_j26405458936016_1_alg».proof.Proof.Model
import proofs.«142644_j26405458936016_1_alg».proof.Proof.RefBridge

set_option maxRecDepth 16384
set_option maxHeartbeats 4000000
noncomputable section

namespace Cert.ReferenceIdeal.RefValue

open Idealize.ShloMosaic Idealize.ShloMosaic.TcCoe Idealize.SL.Sem
open Cert.ReferenceIdeal Cert.ReferenceIdeal.Gen Cert.Gcn

section AnyValues
variable {F : FTy → Type} [FloatOps F]

/-- The run's term with the spreading folded into its name, twice. -/
theorem res_folded (m : (ℓ : Loc nD τ sig) → Buf (Elt F) ℓ) (c : Dev nD) :
    RunP.res_main_v100 (F := F) m c
      = Host.divf (broadcastInDim S50000x128 ![] bcast_S_S50000x128 (constant S_ .f32 0x3F800000#32))
          (addf (broadcastInDim S50000x128 ![] bcast_S_S50000x128 (constant S_ .f32 0x3F800000#32))
            (Host.exp (Host.negf (addf
              (spread128 (F := F)
                (Host.dotGeneral dot_S50000x256_S256x128_S50000x128_1_0_0_1_n_n none
                  (maximumf
                    (addf
                      (spread256 (F := F)
                        (Host.dotGeneral dot_S50000x256_S256x256_S50000x256_1_0_0_1_n_n none (m ((c.tc : Thread nD τ).loc main_arg0)) (m ((c.tc : Thread nD τ).loc main_arg2)))
                        (m ((c.tc : Thread nD τ).loc main_arg1)))
                      (broadcastInDim S50000x256 ![0, 1] bcast_S1x256_S50000x256_0_1
                        (broadcastInDim S1x256 ![1] bcast_S256_S1x256_1 (m ((c.tc : Thread nD τ).loc main_arg3)))))
                    (broadcastInDim S50000x256 ![] bcast_S_S50000x256 (constant S_ .f32 0x00000000#32)))
                  (m ((c.tc : Thread nD τ).loc main_arg4)))
                (m ((c.tc : Thread nD τ).loc main_arg1)))
              (broadcastInDim S50000x128 ![0, 1] bcast_S1x128_S50000x128_0_1
                (broadcastInDim S1x128 ![1] bcast_S128_S1x128_1 (m ((c.tc : Thread nD τ).loc main_arg5)))))))) := by
  unfold RunP.res_main_v100
  rfl

end AnyValues

/-- THE REFERENCE'S VALUE at the extended reals. -/
theorem value (m : (ℓ : Loc nD τ sig) → Buf (Elt Ideal) ℓ) (c : Dev nD) :
    RunP.res_main_v100 (F := Ideal) m c
      = gcn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [res_folded]
  have h1 : Host.dotGeneral dot_S50000x256_S256x256_S50000x256_1_0_0_1_n_n none (m ((c.tc : Thread nD τ).loc main_arg0)) (m ((c.tc : Thread nD τ).loc main_arg2))
      = matProd 50000 256 256 (m ((c.tc : Thread nD τ).loc main_arg0)) (m ((c.tc : Thread nD τ).loc main_arg2)) := dotGeneral_plain 50000 256 256 _ _
  rw [h1]
  have h2 := host_clamp 50000 256
    (spread256 (F := Ideal) (matProd 50000 256 256 (m ((c.tc : Thread nD τ).loc main_arg0)) (m ((c.tc : Thread nD τ).loc main_arg2))) (m ((c.tc : Thread nD τ).loc main_arg1)))
    (m ((c.tc : Thread nD τ).loc main_arg3)) bcast_S1x256_S50000x256_0_1 bcast_S256_S1x256_1 bcast_S_S50000x256 Cert.KernelIdeal.Gen.shapeCasts_S256_S1x256
  have h3 : Host.dotGeneral dot_S50000x256_S256x128_S50000x128_1_0_0_1_n_n none
        (clamp0 (addRow 50000 256
          (spread256 (F := Ideal) (matProd 50000 256 256 (m ((c.tc : Thread nD τ).loc main_arg0)) (m ((c.tc : Thread nD τ).loc main_arg2))) (m ((c.tc : Thread nD τ).loc main_arg1)))
          (shapeCast ⟨2, ![1, 256]⟩ (m ((c.tc : Thread nD τ).loc main_arg3)) Cert.KernelIdeal.Gen.shapeCasts_S256_S1x256)))
        (m ((c.tc : Thread nD τ).loc main_arg4))
      = matProd 50000 256 128
        (clamp0 (addRow 50000 256
          (spread256 (F := Ideal) (matProd 50000 256 256 (m ((c.tc : Thread nD τ).loc main_arg0)) (m ((c.tc : Thread nD τ).loc main_arg2))) (m ((c.tc : Thread nD τ).loc main_arg1)))
          (shapeCast ⟨2, ![1, 256]⟩ (m ((c.tc : Thread nD τ).loc main_arg3)) Cert.KernelIdeal.Gen.shapeCasts_S256_S1x256)))
        (m ((c.tc : Thread nD τ).loc main_arg4)) := dotGeneral_plain 50000 256 128 _ _
  refine (host_logistic 50000 128 _ (m ((c.tc : Thread nD τ).loc main_arg5)) bcast_S1x128_S50000x128_0_1 bcast_S128_S1x128_1 bcast_S_S50000x128
    Cert.KernelIdeal.Gen.shapeCasts_S128_S1x128).trans ?_
  rw [h2, h3]
  rfl

end Cert.ReferenceIdeal.RefValue

end
-- ==== Proof.lean ====
/-
  A two-layer graph convolution: the kernel's program against its reference, over the extended reals.

  Both programs compute, for node features `x`, an edge list `e`, weights `W1`, `W2` and biases `b1`, `b2`,

      logistic ( spread ( clamp ( spread (x · W1) + b1 ) · W2 ) + b2 ),

  where `spread` carries rows along the edges with the symmetric degree normalisation.  The kernel's program computes
  the two matrix products and the two bias-and-activation steps in kernels over blocks of rows, and the spreading
  by host operations between them; the reference computes everything by host operations.  At the extended reals a
  block product accumulated into zero is the block of the whole product, a change of float format is the identity,
  the kernel's logistic operation is `1 / (1 + exp (-y))`, and the spreading is the same chain of operations in both
  programs, so the two results are one function of the arguments; no law of arithmetic beyond these definitions is
  used, so the inputs' finiteness is not needed.
  The three frames: the two kernel programs' are the launch over the four kernel regions and the host stretches
  between them; the reference's is its run with the result dropped.  The ideal pass rewrote nothing, so the
  idealization claim is trivial.
-/
import proofs.«142644_j26405458936016_1_alg».proof.Defs
import proofs.«142644_j26405458936016_1_alg».proof.Proof.Gen.Kernel
import proofs.«142644_j26405458936016_1_alg».proof.Proof.Gen.Kernel.Skeleton
import proofs.«142644_j26405458936016_1_alg».proof.Proof.Gen.Kernel.Launch
import proofs.«142644_j26405458936016_1_alg».proof.Proof.Gen.Kernel.Points
import proofs.«142644_j26405458936016_1_alg».proof.Proof.Gen.Kernel.Frame
import proofs.«142644_j26405458936016_1_alg».proof.Proof.Gen.KernelIdeal
import proofs.«142644_j26405458936016_1_alg».proof.Proof.Gen.KernelIdeal.Skeleton
import proofs.«142644_j26405458936016_1_alg».proof.Proof.Gen.KernelIdeal.Launch
import proofs.«142644_j26405458936016_1_alg».proof.Proof.Gen.KernelIdeal.Points
import proofs.«142644_j26405458936016_1_alg».proof.Proof.Gen.KernelIdeal.Frame
import proofs.«142644_j26405458936016_1_alg».proof.Proof.Gen.ReferenceIdeal
import proofs.«142644_j26405458936016_1_alg».proof.Proof.Gen.Pre_finite_inputs
import proofs.«142644_j26405458936016_1_alg».proof.Proof.ValueRun
import proofs.«142644_j26405458936016_1_alg».proof.Proof.KernelValue
import proofs.«142644_j26405458936016_1_alg».proof.Proof.RefRun
import proofs.«142644_j26405458936016_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_referenceIdeal : Cert.frame_ReferenceIdeal := fun m ρ _ =>
  (θ_run Cert.ReferenceIdeal.defs _ _).mono (fun _ h c => (h c).2) (Cert.ReferenceIdeal.RunP.run (F := Ideal) m ρ)

/-- Both runs end with the result at the two-layer convolution of the (agreeing) arguments. -/
theorem algebraic : Cert.algebraic_KernelIdeal_ReferenceIdeal := by
  intro m ρ m' ρ' _ hagree
  refine ⟨fun c => Cert.Gcn.gcn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.KernelValue.result m ρ c), (h c).2⟩)
      (Cert.KernelIdeal.Named.run (F := Ideal) m ρ)
  · refine (θ_run Cert.ReferenceIdeal.defs _ _).mono (fun r h c => ⟨(h c).1.trans ?_, (h c).2⟩)
      (Cert.ReferenceIdeal.RunP.run (F := Ideal) m' ρ')
    obtain ⟨a0, a1, a2, a3, a4, a5⟩ := hagree c
    rw [Cert.ReferenceIdeal.RefValue.value m' c, a0, a1, a2, a3, a4, a5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
